-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x4096x4096 .f32) (main_arg1 : FVec F S64x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S8192x64 : Shape := ⟨2, ![8192, 64]⟩
abbrev S512x4096 : Shape := ⟨2, ![512, 4096]⟩
abbrev S512x64 : Shape := ⟨2, ![512, 64]⟩

abbrev nBuf : Space → Nat
  | .hbm => 4
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S8192x64, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S2x4096x4096_S8192x4096 : S2x4096x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S64x4096_S64x4096_0_0 : ∀ a, (![0, 0] : Fin 2 → Nat) a + S64x4096.size a ≤ S64x4096.size a
  h_S64x4096 : 0 < S64x4096.numel
  h_S512x64 : 0 < S512x64.numel
  dot_S512x4096_S64x4096_S512x64_1_1_0_0_n_n_wf : DotDims.WF S512x4096 S64x4096 S512x64 [1] [1] [0] [0] [] []
  hrank0 : 0 < grid0.rank
  k0_off1_inb : ∀ i : grid0.Coords, ∀ a, (k0_off1 i) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2x4096x4096_S8192x4096 : S2x4096x4096.ShapeCasts S8192x4096
  transposes_S64x4096_S4096x64_1_0 : S64x4096.Transposes [1, 0] S4096x64
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.LibRowBand.lean ====
/-
  A band of whole rows stored into a rank-2 buffer, read back.

  `bandStore o W P Y` is the array `Y` with its rows `[o, o + W)` replaced by the rows of `P` (row `o + p` of the
  result is row `p` of `P`; every column is kept). A buffer that held `Y` and then took ONE store of `P` through the
  unit-stride rectangle of those rows and every column reads back as `bandStore o W P Y` (`read_store_rows`).
  The two reading lemmas say what an entry of `bandStore` is: inside the band the payload at the row's position within
  it, outside the band what was there before.
-/
import Idealize.ShloMosaic.Lib.WritesUnit

namespace Cert.Lib.RowBand

open Idealize.ShloMosaic

variable {α : Type}

/-- `Y` with the rows `[o, o + W)` replaced by the rows of `P`. -/
def bandStore {d size : Fin 2 → ℕ} (o W : ℕ) (hW : size (0 : Fin 2) = W) (hD : size (1 : Fin 2) = d (1 : Fin 2))
    (P : (⟨2, size⟩ : Shape).Idx → α) (Y : (⟨2, d⟩ : Shape).Idx → α) : (⟨2, d⟩ : Shape).Idx → α :=
  fun y =>
    if h : o ≤ (y (0 : Fin 2)).val ∧ (y (0 : Fin 2)).val < o + W then
      P (Rect.unitLocal (s := ⟨2, d⟩) (off := ![o, 0]) (size := size) y (Rect.unit_rows_mem y hW hD h))
    else Y y

/-- Inside the band: row `o + x 0`, column `x 1` of the result is the payload at `x`. -/
theorem bandStore_of_mem {d size : Fin 2 → ℕ} (o W : ℕ) (hW : size (0 : Fin 2) = W) (hD : size (1 : Fin 2) = d (1 : Fin 2))
    (P : (⟨2, size⟩ : Shape).Idx → α) (Y : (⟨2, d⟩ : Shape).Idx → α) (y : (⟨2, d⟩ : Shape).Idx)
    (x : (⟨2, size⟩ : Shape).Idx) (h0 : (y (0 : Fin 2)).val = o + (x (0 : Fin 2)).val)
    (h1 : (y (1 : Fin 2)).val = (x (1 : Fin 2)).val) : bandStore o W hW hD P Y y = P x := by
  have hx0 : (x (0 : Fin 2)).val < size (0 : Fin 2) := (x (0 : Fin 2)).isLt
  unfold bandStore
  rw [dif_pos ⟨by omega, by omega⟩]
  refine congrArg P (funext fun a => Fin.ext ?_)
  rw [Rect.unitLocal_val]
  revert a
  refine Fin.forall_fin_two.mpr ⟨?_, ?_⟩
  · show (y (0 : Fin 2)).val - o = (x (0 : Fin 2)).val
    omega
  · show (y (1 : Fin 2)).val - 0 = (x (1 : Fin 2)).val
    omega

/-- Outside the band the result is what was there. -/
theorem bandStore_of_not_mem {d size : Fin 2 → ℕ} (o W : ℕ) (hW : size (0 : Fin 2) = W) (hD : size (1 : Fin 2) = d (1 : Fin 2))
    (P : (⟨2, size⟩ : Shape).Idx → α) (Y : (⟨2, d⟩ : Shape).Idx → α) (y : (⟨2, d⟩ : Shape).Idx)
    (h : (y (0 : Fin 2)).val < o ∨ o + W ≤ (y (0 : Fin 2)).val) : bandStore o W hW hD P Y y = Y y := by
  unfold bandStore
  rw [dif_neg (by omega)]

/-- A buffer at contents `f` after one store of `w` through the rows `[o, o + W)`, all columns, reads back as the band
    stored into what `f` read as. -/
theorem read_store_rows {sig : RefSig} {κ : Kind} {sp : Space} {e : EltTy} {Val : EltTy → Type} {d : Fin 2 → ℕ}
    (v : View sig κ sp (⟨2, d⟩ : Shape) e) (f : v.ty.Contents Val) {off size : Fin 2 → ℕ} {o W : ℕ}
    (inb : ∀ a : Fin 2, off a + size a ≤ d a) (w : (Rect.unit (s := ⟨2, d⟩) off size inb).shape.Idx → Val e)
    (hoff : off = ![o, 0]) (hW : size (0 : Fin 2) = W) (hD : size (1 : Fin 2) = d (1 : Fin 2)) :
    v.read Val (v.writes Val f [(⟨Rect.unit (s := ⟨2, d⟩) off size inb, w⟩ : View.Piece Val (⟨2, d⟩ : Shape) e)])
      = bandStore o W hW hD w (v.read Val f) := by
  funext y
  rw [View.read_writes_cons_rows v f inb w [] y hoff hW hD]
  unfold bandStore
  split <;> rfl

end Cert.Lib.RowBand
-- ==== Proof.KernelBody.lean ====
/-
  The kernel body at one grid point, run on whole staging buffers whose contents are NAMED.

  At grid point `i` the body loads its block of 512 token rows (`x0`, 512 × 4096) and the whole expert matrix (`x1`,
  64 × 4096), multiplies them over the hidden axis into a zero accumulator, and stores the 512 × 64 product into rows
  `[512 i, 512 i + 512)` of the resident 8192 × 64 output buffer; it also loads those rows first and drops what it
  loaded. So if the output buffer held `Y` when the body began, it holds `rowsStored i x0 x1 Y` when it ends: `Y`
  with that band of rows replaced by the product, every other row as it was. The inputs' buffers are left as found.
-/
import proofs.«175974_g45363444580704_cont_sun_m_752_15_alg».proof.Proof.Gen.Kernel.Frame
import proofs.«175974_g45363444580704_cont_sun_m_752_15_alg».proof.Proof.Gen.Kernel.Skeleton
import proofs.«175974_g45363444580704_cont_sun_m_752_15_alg».proof.Proof.LibRowBand
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The band a point stores has 512 rows and all 64 columns. -/
theorem band_rows : S512x64.size (0 : Fin 2) = 512 := rfl
theorem band_cols : S512x64.size (1 : Fin 2) = (![8192, 64] : Fin 2 → ℕ) (1 : Fin 2) := rfl

/-- The output buffer after the body at grid point `i`, if it held `Y` before: rows `[512 i, 512 i + 512)` are the
    product of the point's token rows `x0` with the expert matrix `x1`, the other rows are `Y`'s. -/
def rowsStored (i : grid0.Coords) (x0 : Vec F S512x4096 .f32) (x1 : Vec F S64x4096 .f32) (Y : Vec F S8192x64 .f32) :
    Vec F S8192x64 .f32 :=
  Cert.Lib.RowBand.bandStore (d := ![8192, 64]) (size := S512x64.size) (512 * (i 0).val) 512 band_rows band_cols (k0_pay1 x0 x1) Y

theorem zero_offsets : (![0, 0] : Fin 2 → Nat) = fun _ => 0 := funext fun a => by fin_cases a <;> rfl

set_option maxHeartbeats 1000000 in
/-- The body's triple: from the inputs' buffers at `x0`, `x1` and the output's at `Y`, the body runs to the
    continuation with the inputs' buffers unchanged and the output's at `rowsStored i x0 x1 Y`. -/
theorem bodyRun (c : Dev nD) (i : grid0.Coords) (arg1 : Memref sig .tc .vmem S512x4096 .f32) (harg1 : arg1.IsWhole)
    (arg2 : Memref sig .tc .vmem S64x4096 .f32) (harg2 : arg2.IsWhole) (arg3 : Memref sig .tc .vmem S8192x64 .f32) (harg3 : arg3.IsWhole)
    (x0 : Vec F S512x4096 .f32) (x1 : Vec F S64x4096 .f32) (Y : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare Y
            ∗ (iprop(owns (c : Thread nD τ) arg1 fullShare x0 ∗ owns (c : Thread nD τ) arg2 fullShare x1
                ∗ owns (c : Thread nD τ) arg3 fullShare (rowsStored i x0 x1 Y)) -∗ K ⟨⟩))
          ⊢ wp frame (wpE (defs₀ (F := F)) Variants.none c none) E (cc0__router_kernel i arg1 harg1 arg2 harg2 arg3 harg3) K := by
    intro E K
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    simp only [View.readAt_eq_ld, harg1.read_unread, harg2.read_unread, View.ld_unit_zero (S := S512x4096) zero_offsets,
      View.ld_unit_zero (S := S64x4096) zero_offsets]
    rw [Cert.Lib.RowBand.read_store_rows (d := ![8192, 64]) arg3.view (harg3.unread Y) (k0_off1_inb i) _ (k0_off1_eq i) band_rows band_cols,
      harg3.read_unread]
    rfl

end Cert.Kernel.Hand

end
-- ==== Proof.KernelFrame.lean ====
/-
  The pipeline's proof data, the body obligation and the run of @main, with the output buffer's contents CONSTRAINED
  point by point rather than named.

  The output window is the whole 8192 × 64 result, resident in one staging buffer over all 16 grid points and written
  back once, after the last. Each point overwrites only its own band of 512 rows, and the buffer starts at contents
  nobody chose, so what it holds after a point is not a function of the inputs alone: it is what it held before with
  that band replaced. That is stated as a relation between what the body is handed and what it leaves (`outRel`). The
  two input windows are described exactly: at every point the token window holds its block, the expert window the whole
  expert matrix, and the body leaves both as found.
-/
import proofs.«175974_g45363444580704_cont_sun_m_752_15_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The inputs, exactly: the arrays as the region finds them; after the body at point `t` each input's buffer at its
    block. (The output's entry here is never read: its relation below replaces it.) -/
def inDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem inDat_A (c : Dev nD) (w : Fin cfg0.W) : (inDat m c).A w = V m c (Pipeline.arrRef spec0 w) := by
  dsimp only [inDat]
theorem inDat_after0 (c : Dev nD) (t : Fin cfg0.N) : (inDat m c).after 0 t = iblk m c 0 t := by dsimp only [inDat]
theorem inDat_after1 (c : Dev nD) (t : Fin cfg0.N) : (inDat m c).after 1 t = iblk m c 1 t := by dsimp only [inDat]

/-- What the body may leave in the output buffer at point `t` (`X`) given what it was handed (`Y`): `Y` with the
    point's band of rows replaced by the product of the point's token rows with the expert matrix. -/
def outRel (c : Dev nD) (t : Fin cfg0.N) (Y X : Vec F S8192x64 .f32) : Prop :=
  X = rowsStored (grid0.coords t) (iblk m c 0 t) (iblk m c 1 t) Y

/-- The output window's relation; the input windows keep their exact description. -/
def relOf (c : Dev nD) :
    (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data of the one pipeline on core `c`. -/
def rdat (c : Dev nD) : RDat τ (Elt F) Unit ℕ (UR sig nD τ) ℕ cfg0 c := (inDat m c).toR.override (relOf m c)

theorem rdat_A (c : Dev nD) (w : Fin cfg0.W) : (rdat m c).A w = V m c (Pipeline.arrRef spec0 w) := inDat_A m c w

theorem rdat_after0 (c : Dev nD) : (rdat m c).after 0 = (inDat m c).toR.after 0 :=
  (inDat m c).toR.override_after_of_eq_none (ovr := relOf m c) (w := 0) rfl
theorem rdat_after1 (c : Dev nD) : (rdat m c).after 1 = (inDat m c).toR.after 1 :=
  (inDat m c).toR.override_after_of_eq_none (ovr := relOf m c) (w := 1) rfl
theorem rdat_after2 (c : Dev nD) : (rdat m c).after 2 = outRel m c :=
  (inDat m c).toR.override_after_of_eq_some (ovr := relOf m c) (w := 2) rfl

/-- Whatever the token window's current buffer may hold at point `t`, it is the point's block. -/
theorem finds_in0 (c : Dev nD) (t : Fin cfg0.N) (Y : (cfg0.win 0).block.Idx → Elt F (cfg0.win 0).elt)
    (h : (rdat m c).Finds 0 t Y) : Y = iblk m c 0 t := by
  obtain ⟨d, rfl⟩ := (inDat m c).toR_finds 0 t Y
    (((inDat m c).toR.override_finds (ovr := relOf m c) (w := 0) rfl t Y).mp h)
  exact before0_0_of m (inDat m c) (inDat_A m c 0) (inDat_after0 m c) t d

/-- Whatever the expert window's current buffer may hold at point `t`, it is the window's block. -/
theorem finds_in1 (c : Dev nD) (t : Fin cfg0.N) (Y : (cfg0.win 1).block.Idx → Elt F (cfg0.win 1).elt)
    (h : (rdat m c).Finds 1 t Y) : Y = iblk m c 1 t := by
  obtain ⟨d, rfl⟩ := (inDat m c).toR_finds 1 t Y
    (((inDat m c).toR.override_finds (ovr := relOf m c) (w := 1) rfl t Y).mp h)
  exact before0_1_of m (inDat m c) (inDat_A m c 1) (inDat_after1 m c) t d

/-! ## The body obligation -/

/-- The body at any point, handed the inputs' blocks and the output buffer at `Y2`: it returns the inputs' buffers as
    found and the output's at contents in the relation to `Y2`. -/
theorem sound_body (c : Dev nD) (t : Fin cfg0.N) (Y0 : (cfg0.win 0).block.Idx → Elt F (cfg0.win 0).elt)
    (Y1 : (cfg0.win 1).block.Idx → Elt F (cfg0.win 1).elt) (Y2 : (cfg0.win 2).block.Idx → Elt F (cfg0.win 2).elt)
    (e0 : Y0 = iblk m c 0 t) (e1 : Y1 = iblk m c 1 t) :
    iprop((rdat m c).Φ t.castSucc ∗ (rdat m c).owesAt () t.castSucc
        ∗ owns (c : Thread nD τ) (st0_0 t) fullShare Y0
        ∗ owns (c : Thread nD τ) (st0_1 t) fullShare Y1
        ∗ owns (c : Thread nD τ) (st0_2 t) fullShare Y2)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t Y0 X⌝ ∗ owns (c : Thread nD τ) (st0_0 t) fullShare X)
            ∗ (∃ X, ⌜(rdat m c).after 1 t Y1 X⌝ ∗ owns (c : Thread nD τ) (st0_1 t) fullShare X)
            ∗ (∃ X, ⌜(rdat m c).after 2 t Y2 X⌝ ∗ owns (c : Thread nD τ) (st0_2 t) fullShare X))) := by
  subst e0 e1
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply ((bodyRun c (grid0.coords t) _ _ _ _ _ _ (iblk m c 0 t) (iblk m c 1 t) Y2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (iblk m c 0 t); isplitr
    · ipureintro
      rw [rdat_after0]
      exact (Dat.Leaves.live_iff (inDat m c) (.inl rfl)).mpr (inDat_after0 m c t).symm
    · iexact H0
  isplitl [H1]
  · iexists (iblk m c 1 t); isplitr
    · ipureintro
      rw [rdat_after1]
      exact (Dat.Leaves.live_iff (inDat m c) (.inl rfl)).mpr (inDat_after1 m c t).symm
    · iexact H1
  iexists (rowsStored (grid0.coords t) (iblk m c 0 t) (iblk m c 1 t) Y2); isplitr
  · ipureintro
    rw [rdat_after2]
    exact rfl
  · iexact H2

/-- The library's body obligation, at every point and for all contents the buffers may hold. -/
theorem body_obligation (c : Dev nD) :
    (rdat m c).BodyObligation (defs₀ (F := F)) Variants.none () Set.univ := fun t Y hY => by
  rw [bigSep_W0, bigSep_W0]
  exact sound_body m c t (Y 0) (Y 1) (Y 2) (finds_in0 m c t (Y 0) (hY 0)) (finds_in1 m c t (Y 1) (hY 1))

/-! ## The run and the frame -/

set_option backward.isDefEq.respectTransparency.types false in
/-- Every weakly fair execution of @main terminates; in every final state each windowed array holds contents it may
    hold after every write-back under the relations above, and every other unscoped buffer its region-entry contents. -/
theorem run_main : θ_run defs (onTc (τ := τ) (main (F := F))) (s₀ m ρ)
    (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- The frame: @main runs, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (by decide))).trans (V_main_arg0 m c),
        (Pipeline.RDat.FramePost.arr_in h c 1 rfl).trans ((rdat_A m c 1).trans (V_main_arg1 m c))⟩)
    (run_main m ρ)

end Cert.Kernel.Hand

end
-- ==== Proof.KernelIdealBody.lean ====
/-
  The kernel body at one grid point, run on whole staging buffers whose contents are NAMED.

  At grid point `i` the body loads its block of 512 token rows (`x0`, 512 × 4096) and the whole expert matrix (`x1`,
  64 × 4096), multiplies them over the hidden axis into a zero accumulator, and stores the 512 × 64 product into rows
  `[512 i, 512 i + 512)` of the resident 8192 × 64 output buffer; it also loads those rows first and drops what it
  loaded. So if the output buffer held `Y` when the body began, it holds `rowsStored i x0 x1 Y` when it ends: `Y`
  with that band of rows replaced by the product, every other row as it was. The inputs' buffers are left as found.
-/
import proofs.«175974_g45363444580704_cont_sun_m_752_15_alg».proof.Proof.Gen.KernelIdeal.Frame
import proofs.«175974_g45363444580704_cont_sun_m_752_15_alg».proof.Proof.Gen.KernelIdeal.Skeleton
import proofs.«175974_g45363444580704_cont_sun_m_752_15_alg».proof.Proof.LibRowBand
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The band a point stores has 512 rows and all 64 columns. -/
theorem band_rows : S512x64.size (0 : Fin 2) = 512 := rfl
theorem band_cols : S512x64.size (1 : Fin 2) = (![8192, 64] : Fin 2 → ℕ) (1 : Fin 2) := rfl

/-- The output buffer after the body at grid point `i`, if it held `Y` before: rows `[512 i, 512 i + 512)` are the
    product of the point's token rows `x0` with the expert matrix `x1`, the other rows are `Y`'s. -/
def rowsStored (i : grid0.Coords) (x0 : Vec F S512x4096 .f32) (x1 : Vec F S64x4096 .f32) (Y : Vec F S8192x64 .f32) :
    Vec F S8192x64 .f32 :=
  Cert.Lib.RowBand.bandStore (d := ![8192, 64]) (size := S512x64.size) (512 * (i 0).val) 512 band_rows band_cols (k0_pay1 x0 x1) Y

theorem zero_offsets : (![0, 0] : Fin 2 → Nat) = fun _ => 0 := funext fun a => by fin_cases a <;> rfl

set_option maxHeartbeats 1000000 in
/-- The body's triple: from the inputs' buffers at `x0`, `x1` and the output's at `Y`, the body runs to the
    continuation with the inputs' buffers unchanged and the output's at `rowsStored i x0 x1 Y`. -/
theorem bodyRun (c : Dev nD) (i : grid0.Coords) (arg1 : Memref sig .tc .vmem S512x4096 .f32) (harg1 : arg1.IsWhole)
    (arg2 : Memref sig .tc .vmem S64x4096 .f32) (harg2 : arg2.IsWhole) (arg3 : Memref sig .tc .vmem S8192x64 .f32) (harg3 : arg3.IsWhole)
    (x0 : Vec F S512x4096 .f32) (x1 : Vec F S64x4096 .f32) (Y : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare Y
            ∗ (iprop(owns (c : Thread nD τ) arg1 fullShare x0 ∗ owns (c : Thread nD τ) arg2 fullShare x1
                ∗ owns (c : Thread nD τ) arg3 fullShare (rowsStored i x0 x1 Y)) -∗ K ⟨⟩))
          ⊢ wp frame (wpE (defs₀ (F := F)) Variants.none c none) E (cc0__router_kernel i arg1 harg1 arg2 harg2 arg3 harg3) K := by
    intro E K
    simp only [cc0__router_kernel_eq_skeleton]; unfold cc0__router_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    simp only [View.readAt_eq_ld, harg1.read_unread, harg2.read_unread, View.ld_unit_zero (S := S512x4096) zero_offsets,
      View.ld_unit_zero (S := S64x4096) zero_offsets]
    rw [Cert.Lib.RowBand.read_store_rows (d := ![8192, 64]) arg3.view (harg3.unread Y) (k0_off1_inb i) _ (k0_off1_eq i) band_rows band_cols,
      harg3.read_unread]
    rfl

end Cert.KernelIdeal.Hand

end
-- ==== Proof.KernelIdealFrame.lean ====
/-
  The pipeline's proof data, the body obligation and the run of @main, with the output buffer's contents CONSTRAINED
  point by point rather than named.

  The output window is the whole 8192 × 64 result, resident in one staging buffer over all 16 grid points and written
  back once, after the last. Each point overwrites only its own band of 512 rows, and the buffer starts at contents
  nobody chose, so what it holds after a point is not a function of the inputs alone: it is what it held before with
  that band replaced. That is stated as a relation between what the body is handed and what it leaves (`outRel`). The
  two input windows are described exactly: at every point the token window holds its block, the expert window the whole
  expert matrix, and the body leaves both as found.
-/
import proofs.«175974_g45363444580704_cont_sun_m_752_15_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The inputs, exactly: the arrays as the region finds them; after the body at point `t` each input's buffer at its
    block. (The output's entry here is never read: its relation below replaces it.) -/
def inDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem inDat_A (c : Dev nD) (w : Fin cfg0.W) : (inDat m c).A w = V m c (Pipeline.arrRef spec0 w) := by
  dsimp only [inDat]
theorem inDat_after0 (c : Dev nD) (t : Fin cfg0.N) : (inDat m c).after 0 t = iblk m c 0 t := by dsimp only [inDat]
theorem inDat_after1 (c : Dev nD) (t : Fin cfg0.N) : (inDat m c).after 1 t = iblk m c 1 t := by dsimp only [inDat]

/-- What the body may leave in the output buffer at point `t` (`X`) given what it was handed (`Y`): `Y` with the
    point's band of rows replaced by the product of the point's token rows with the expert matrix. -/
def outRel (c : Dev nD) (t : Fin cfg0.N) (Y X : Vec F S8192x64 .f32) : Prop :=
  X = rowsStored (grid0.coords t) (iblk m c 0 t) (iblk m c 1 t) Y

/-- The output window's relation; the input windows keep their exact description. -/
def relOf (c : Dev nD) :
    (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data of the one pipeline on core `c`. -/
def rdat (c : Dev nD) : RDat τ (Elt F) Unit ℕ (UR sig nD τ) ℕ cfg0 c := (inDat m c).toR.override (relOf m c)

theorem rdat_A (c : Dev nD) (w : Fin cfg0.W) : (rdat m c).A w = V m c (Pipeline.arrRef spec0 w) := inDat_A m c w

theorem rdat_after0 (c : Dev nD) : (rdat m c).after 0 = (inDat m c).toR.after 0 :=
  (inDat m c).toR.override_after_of_eq_none (ovr := relOf m c) (w := 0) rfl
theorem rdat_after1 (c : Dev nD) : (rdat m c).after 1 = (inDat m c).toR.after 1 :=
  (inDat m c).toR.override_after_of_eq_none (ovr := relOf m c) (w := 1) rfl
theorem rdat_after2 (c : Dev nD) : (rdat m c).after 2 = outRel m c :=
  (inDat m c).toR.override_after_of_eq_some (ovr := relOf m c) (w := 2) rfl

/-- Whatever the token window's current buffer may hold at point `t`, it is the point's block. -/
theorem finds_in0 (c : Dev nD) (t : Fin cfg0.N) (Y : (cfg0.win 0).block.Idx → Elt F (cfg0.win 0).elt)
    (h : (rdat m c).Finds 0 t Y) : Y = iblk m c 0 t := by
  obtain ⟨d, rfl⟩ := (inDat m c).toR_finds 0 t Y
    (((inDat m c).toR.override_finds (ovr := relOf m c) (w := 0) rfl t Y).mp h)
  exact before0_0_of m (inDat m c) (inDat_A m c 0) (inDat_after0 m c) t d

/-- Whatever the expert window's current buffer may hold at point `t`, it is the window's block. -/
theorem finds_in1 (c : Dev nD) (t : Fin cfg0.N) (Y : (cfg0.win 1).block.Idx → Elt F (cfg0.win 1).elt)
    (h : (rdat m c).Finds 1 t Y) : Y = iblk m c 1 t := by
  obtain ⟨d, rfl⟩ := (inDat m c).toR_finds 1 t Y
    (((inDat m c).toR.override_finds (ovr := relOf m c) (w := 1) rfl t Y).mp h)
  exact before0_1_of m (inDat m c) (inDat_A m c 1) (inDat_after1 m c) t d

/-! ## The body obligation -/

/-- The body at any point, handed the inputs' blocks and the output buffer at `Y2`: it returns the inputs' buffers as
    found and the output's at contents in the relation to `Y2`. -/
theorem sound_body (c : Dev nD) (t : Fin cfg0.N) (Y0 : (cfg0.win 0).block.Idx → Elt F (cfg0.win 0).elt)
    (Y1 : (cfg0.win 1).block.Idx → Elt F (cfg0.win 1).elt) (Y2 : (cfg0.win 2).block.Idx → Elt F (cfg0.win 2).elt)
    (e0 : Y0 = iblk m c 0 t) (e1 : Y1 = iblk m c 1 t) :
    iprop((rdat m c).Φ t.castSucc ∗ (rdat m c).owesAt () t.castSucc
        ∗ owns (c : Thread nD τ) (st0_0 t) fullShare Y0
        ∗ owns (c : Thread nD τ) (st0_1 t) fullShare Y1
        ∗ owns (c : Thread nD τ) (st0_2 t) fullShare Y2)
      ⊢ wp frame (wpE (defs₀ (F := F)) Variants.none c none) Set.univ (bodyAt0 t) (fun _ =>
          iprop((rdat m c).Φ t.succ ∗ (rdat m c).owesAt () t.succ
            ∗ (∃ X, ⌜(rdat m c).after 0 t Y0 X⌝ ∗ owns (c : Thread nD τ) (st0_0 t) fullShare X)
            ∗ (∃ X, ⌜(rdat m c).after 1 t Y1 X⌝ ∗ owns (c : Thread nD τ) (st0_1 t) fullShare X)
            ∗ (∃ X, ⌜(rdat m c).after 2 t Y2 X⌝ ∗ owns (c : Thread nD τ) (st0_2 t) fullShare X))) := by
  subst e0 e1
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply ((bodyRun c (grid0.coords t) _ _ _ _ _ _ (iblk m c 0 t) (iblk m c 1 t) Y2) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (iblk m c 0 t); isplitr
    · ipureintro
      rw [rdat_after0]
      exact (Dat.Leaves.live_iff (inDat m c) (.inl rfl)).mpr (inDat_after0 m c t).symm
    · iexact H0
  isplitl [H1]
  · iexists (iblk m c 1 t); isplitr
    · ipureintro
      rw [rdat_after1]
      exact (Dat.Leaves.live_iff (inDat m c) (.inl rfl)).mpr (inDat_after1 m c t).symm
    · iexact H1
  iexists (rowsStored (grid0.coords t) (iblk m c 0 t) (iblk m c 1 t) Y2); isplitr
  · ipureintro
    rw [rdat_after2]
    exact rfl
  · iexact H2

/-- The library's body obligation, at every point and for all contents the buffers may hold. -/
theorem body_obligation (c : Dev nD) :
    (rdat m c).BodyObligation (defs₀ (F := F)) Variants.none () Set.univ := fun t Y hY => by
  rw [bigSep_W0, bigSep_W0]
  exact sound_body m c t (Y 0) (Y 1) (Y 2) (finds_in0 m c t (Y 0) (hY 0)) (finds_in1 m c t (Y 1) (hY 1))

/-! ## The run and the frame -/

set_option backward.isDefEq.respectTransparency.types false in
/-- Every weakly fair execution of @main terminates; in every final state each windowed array holds contents it may
    hold after every write-back under the relations above, and every other unscoped buffer its region-entry contents. -/
theorem run_main : θ_run defs (onTc (τ := τ) (main (F := F))) (s₀ m ρ)
    (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- The frame: @main runs, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (by decide))).trans (V_main_arg0 m c),
        (Pipeline.RDat.FramePost.arr_in h c 1 rfl).trans ((rdat_A m c 1).trans (V_main_arg1 m c))⟩)
    (run_main m ρ)

end Cert.KernelIdeal.Hand

end
-- ==== Proof.LibRelArray.lean ====
/-
  What a windowed array holds after every write-back, when the staging contents are CONSTRAINED rather than named.

  Relational proof data say of an output array only that it may hold, after the write-backs below a point, its entry
  contents overwritten block by block, in point order, by the moved part of SOME contents the body may have left in
  the staging buffer at each flushing point (`RDat.ArrAt`). If everything the body may leave at a flushing point `t`
  has, on its moved part, block `t` of ONE whole-array contents `G`, then every index some flushed block below `n`
  covers reads `G` after the write-backs below `n`: the last point that covers it wrote `G` there and earlier ones
  were overwritten (`arrAt_apply_of_mem`); and if the flushed blocks cover the array, the array ends at `G`
  (`arrAt_eq_of_cover`). This is the relational counterpart of the library's whole-array post for exact proof data.
-/
import Idealize.ShloMosaic.Lib.Pipeline.Value

namespace Cert.Lib.RelArray

open Idealize.ShloMosaic Idealize.ShloMosaic.Pipeline Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- An index in a flushed block below `n` reads `G` in any contents the array may hold after the write-backs below
    `n`, if the moved part of whatever the body may leave at a flushing point is that point's block of `G`. -/
theorem arrAt_apply_of_mem (w : Fin cfg.W) (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    simp only [RDat.ArrAt] at hF
    by_cases hn : n < cfg.N
    · rw [dif_pos hn] at hF
      by_cases hfn : (cfg.win w).flush ⟨n, hn⟩ = true
      · rw [if_pos hfn] at hF
        obtain ⟨G₀, X, hG₀, hL, rfl⟩ := hF
        rw [hG _ X hfn hL, View.write_read_eq_piecewise]
        by_cases hin : i ∈ ((cfg.win w).blk ⟨n, hn⟩).view.setOn Finset.univ
        · rw [Finset.piecewise_eq_of_mem _ _ _ hin]
        · rw [Finset.piecewise_eq_of_notMem _ _ _ hin]
          have htn : t.val ≠ n := fun e => hin (by
            rw [View.setOn_univ]
            have : t = ⟨n, hn⟩ := Fin.ext e
            exact this ▸ hi)
          exact arrAt_apply_of_mem w G hG n G₀ hG₀ t i (by omega) hf hi
      · rw [if_neg hfn] at hF
        have htn : t.val ≠ n := fun e => hfn (by
          have : t = ⟨n, hn⟩ := Fin.ext e
          exact this ▸ hf)
        exact arrAt_apply_of_mem w G hG n F hF t i (by omega) hf hi
    · rw [dif_neg hn] at hF
      exact arrAt_apply_of_mem w G hG n F hF t i (by have := t.isLt; omega) hf hi

/-- When the flushed blocks cover the array, any contents it may hold after every write-back is `G`. -/
theorem arrAt_eq_of_cover (w : Fin cfg.W) (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i =>
    let ⟨t, hf, hi⟩ := hcover i
    arrAt_apply_of_mem rd w G hG cfg.N F hF t i t.isLt hf hi

end Cert.Lib.RelArray
-- ==== Proof.KernelIdealValue.lean ====
/-
  The result array after the run, named.

  Row `r` of the 8192 × 64 result belongs to grid point `r / 512`, which stores the product of ITS 512 token rows with
  the expert matrix into the band `[512 t, 512 t + 512)` of the resident output buffer; `result` is the array whose row
  `r` is row `r % 512` of its owner's product. The points run in order and each keeps the rows outside its band, so by
  induction over the points the buffer agrees with `result` on the rows below `512 (t + 1)` after point `t` — whatever it
  held when the run began —, hence everywhere after the last point, which is the only one that writes the buffer back;
  that write-back covers the whole array. So the result array ends at `result` in every execution.
-/
import proofs.«175974_g45363444580704_cont_sun_m_752_15_alg».proof.Proof.KernelIdealFrame
import proofs.«175974_g45363444580704_cont_sun_m_752_15_alg».proof.Proof.LibRelArray
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ) (ρ : Dev nD → PrngReg)

/-! ## The schedule and the index maps, decided over the 16 points -/

/-- The one grid coordinate of point `t` is `t`. -/
theorem point_coord : ∀ t : Fin cfg0.N, ((grid0.coords t) 0).val = t.val :=
  (by decide +kernel : ∀ t : Fin grid0.N, ((grid0.coords t) 0).val = t.val)

/-- The output window is never fetched. -/
theorem out_not_fetched : ∀ t : Fin cfg0.N, (cfg0.win 2).fetch t = false :=
  (by decide +kernel : ∀ t : Fin grid0.N, win0_2.fetch t = false)

/-- The block indices: the token window's is `(t, 0)`; the expert and the output windows' are `(0, 0)` throughout. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem N_lt (t : Fin cfg0.N) : t.val < 16 := lt_of_lt_of_eq t.isLt N_0

/-! ## The result array -/

/-- The product grid point `t` computes: its 512 token rows times the expert matrix, over the hidden axis. -/
def pointProduct (c : Dev nD) (t : Fin cfg0.N) : Vec F S512x64 .f32 := k0_pay1 (iblk m c 0 t) (iblk m c 1 t)

/-- The grid point that owns row `y 0`. -/
def ownerOf (y : S8192x64.Idx) : Fin cfg0.N :=
  ⟨(y 0).val / 512, by
    have h : (y 0).val < 8192 := (y 0).isLt
    show (y 0).val / 512 < grid0.N
    rw [N_0]; omega⟩

/-- The position of index `y` within its owner's band. -/
def placeIn (y : S8192x64.Idx) : S512x64.Idx :=
  ix2 ⟨(y 0).val % 512, Nat.mod_lt _ (by decide)⟩ ⟨(y 1).val, (y 1).isLt⟩

/-- The result array: each row from its owner's product. -/
def result (c : Dev nD) : Vec F S8192x64 .f32 := fun y => pointProduct m c (ownerOf y) (placeIn y)

/-- `X` agrees with the result on the rows below `512 n`. -/
def upTo (c : Dev nD) (n : Nat) (X : Vec F S8192x64 .f32) : Prop :=
  ∀ y : S8192x64.Idx, (y 0).val < 512 * n → X y = result m c y

/-- One point: if the buffer agreed with the result below the point's band, then after the point's store it agrees
    below the next band. -/
theorem upTo_step (c : Dev nD) (t : Fin cfg0.N) (Y : Vec F S8192x64 .f32) (h : upTo m c t.val Y) :
    upTo m c (t.val + 1) (rowsStored (grid0.coords t) (iblk m c 0 t) (iblk m c 1 t) Y) := by
  intro y hy
  have hy0 : (y 0).val < 8192 := (y 0).isLt
  unfold rowsStored
  rw [point_coord t]
  by_cases hb : 512 * t.val ≤ (y 0).val
  · have ho : ownerOf y = t := Fin.ext (by show (y 0).val / 512 = t.val; omega)
    refine (Cert.Lib.RowBand.bandStore_of_mem (512 * t.val) 512 band_rows band_cols _ Y y (placeIn y)
      (by show (y 0).val = 512 * t.val + (y 0).val % 512; omega) rfl).trans ?_
    unfold result pointProduct
    rw [ho]
  · refine (Cert.Lib.RowBand.bandStore_of_not_mem (512 * t.val) 512 band_rows band_cols _ Y y (.inl (by omega))).trans ?_
    exact h y (by omega)

/-- What the body may leave at point `t` agrees with the result below the next band, if everything it may find there
    agrees below this one. -/
theorem leaves_upTo (c : Dev nD) (t : Fin cfg0.N) (X : (cfg0.win 2).block.Idx → Elt F (cfg0.win 2).elt)
    (ih : ∀ Y, (rdat m c).Finds 2 t Y → upTo m c t.val Y) (hL : (rdat m c).Leaves 2 t X) : upTo m c (t.val + 1) X := by
  obtain ⟨Y, hY, hR⟩ := hL
  rw [rdat_after2] at hR
  rw [show X = rowsStored (grid0.coords t) (iblk m c 0 t) (iblk m c 1 t) Y from hR]
  exact upTo_step m c t Y (ih Y hY)

/-- Whatever the output buffer may hold when the body runs at point `n`, it agrees with the result below that band. -/
theorem finds_upTo (c : Dev nD) (n : Nat) :
    ∀ (hn : n < cfg0.N) (Y : (cfg0.win 2).block.Idx → Elt F (cfg0.win 2).elt), (rdat m c).Finds 2 ⟨n, hn⟩ Y → upTo m c n Y := by
  induction n with
  | zero => intro _ _ _ y hy; exact absurd hy (by omega)
  | succ n ih =>
    intro hn Y h
    have hn' : n < cfg0.N := Nat.lt_of_succ_lt hn
    rcases ((rdat m c).finds_of_pos (out_not_fetched ⟨n + 1, hn⟩) (Nat.succ_ne_zero n) Y).mp h with hfl | hL
    · exfalso
      have h15 : n % 16 = 15 := (flush0_2 ⟨n, hn'⟩).mp hfl
      have hN := N_lt ⟨n + 1, hn⟩
      have hN' : n + 1 < 16 := hN
      omega
    · exact leaves_upTo m c ⟨n, hn'⟩ Y (fun Y' hY' => ih hn' Y' hY') hL

/-- At the last point the body leaves the result itself. -/
theorem leaves_last (c : Dev nD) (t : Fin cfg0.N) (ht : t.val = 15) (X : (cfg0.win 2).block.Idx → Elt F (cfg0.win 2).elt)
    (hL : (rdat m c).Leaves 2 t X) : X = result m c := by
  funext y
  have hy0 : (y 0).val < 8192 := (y 0).isLt
  exact leaves_upTo m c t X (fun Y hY => finds_upTo m c t.val t.isLt Y hY) hL y (by omega)

/-- An index of the result array is in point `t`'s output block iff each coordinate is in the block's range. -/
theorem mem_out_blk (t : Fin cfg0.N) (i : S8192x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v1).slice (win0_2.rect t)).set ↔ _
  rw [View.set_slice_whole, Rect.mem_set_unit]
  exact Iff.rfl

/-- The result array after the run: any contents it may hold after the one write-back is `result`. -/
theorem out_array (c : Dev nD) (A : Buf (Elt F) ((cfg0.win 2).arr.view.loc (c.tc : Thread nD τ)))
    (hA : (rdat m c).ArrAt 2 cfg0.N A) : A = result m c :=
  Cert.Lib.RelArray.arrAt_eq_of_cover (rdat m c) 2 (result m c)
    (fun t X hf hL => by
      have ht : t.val = 15 := by
        have h1 := (flush0_2 t).mp hf
        have h2 := N_lt t
        omega
      rw [leaves_last m c t ht X hL]
      obtain ⟨-, -, -, -, e4, e5⟩ := idx_facts t
      funext j
      show result m c j = result m c (((cfg0.win 2).blk t).view.emb j)
      refine congrArg (result m c) (funext fun a => Fin.ext ?_)
      match a with
      | ⟨0, _⟩ => show (j 0).val = win0_2.index t (0 : Fin 2) * 8192 + 1 * (j 0).val; omega
      | ⟨1, _⟩ => show (j 1).val = win0_2.index t (1 : Fin 2) * 64 + 1 * (j 1).val; omega)
    (fun i => ⟨t0_15, (flush0_2 t0_15).mpr rfl, by
      obtain ⟨-, -, -, -, e4, e5⟩ := idx_facts t0_15
      rw [mem_out_blk]
      intro a
      match a with
      | ⟨0, _⟩ =>
        show win0_2.index t0_15 (0 : Fin 2) * 8192 ≤ (i 0).val ∧ (i 0).val < win0_2.index t0_15 (0 : Fin 2) * 8192 + 8192
        have hi : (i 0).val < 8192 := (i 0).isLt
        omega
      | ⟨1, _⟩ =>
        show win0_2.index t0_15 (1 : Fin 2) * 64 ≤ (i 1).val ∧ (i 1).val < win0_2.index t0_15 (1 : Fin 2) * 64 + 64
        have hi : (i 1).val < 64 := (i 1).isLt
        omega⟩)
    A hA

/-! ## The run, with the result named -/

/-- Every weakly fair execution of @main terminates with the result array at `result` and the arguments unchanged. -/
theorem run_value : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨out_array m c _ ((h c).1 2),
        ((h c).2 main_arg0 (Pipeline.mem_restRefs_of main_arg0 (by decide) (by decide))).trans (V_main_arg0 m c),
        (Pipeline.RDat.FramePost.arr_in h c 1 rfl).trans ((rdat_A m c 1).trans (V_main_arg1 m c))⟩)
    (run_main m ρ)

end Cert.KernelIdeal.Hand

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Spec.lean ====
/-
  The specification: the router's logits.

  For a token matrix `X` (8192 tokens × 4096 hidden) and an expert matrix `W` (64 experts × 4096 hidden), the logit of
  token `r` for expert `e` is the inner product of row `r` of `X` with row `e` of `W` over the hidden axis:
  `logits X W (r, e) = ∑ k, X (r, k) · W (e, k)`, a finite sum of products in the extended reals. Both programs compute
  this array; no algebraic law beyond the definition joins them (the kernel tiles the TOKEN axis, never the summed one,
  so the sums are the same sums term by term), and finiteness of the inputs is not used.
-/
import Idealize.ShloMosaic.PureOps.Ideal
import Idealize.ShloMosaic.Lib.ValueIdx

noncomputable section

open scoped BigOperators

namespace Cert.Spec

open Idealize.ShloMosaic Idealize.ShloMosaic.ValueIdx

/-- Token `i 0`'s logit for expert `i 1`. -/
def logits (X : (⟨2, ![8192, 4096]⟩ : Shape).Idx → EReal) (W : (⟨2, ![64, 4096]⟩ : Shape).Idx → EReal) :
    (⟨2, ![8192, 64]⟩ : Shape).Idx → EReal :=
  fun i => ∑ k : Fin 4096, X (ix2 (⟨(i 0).val, (i 0).isLt⟩ : Fin 8192) k) * W (ix2 (⟨(i 1).val, (i 1).isLt⟩ : Fin 64) k)

end Cert.Spec

end
-- ==== Proof.KernelIdealSum.lean ====
/-
  The result array is the logits, over the extended reals.

  A point's product, read at (p, q), is the matrix product into a zero accumulator: the sum over the hidden index k of
  the point's token rows at (p, k) times the expert matrix at (q, k). The point's token rows are rows
  `[512 t, 512 t + 512)` of the reshaped tokens and its expert block is the whole expert matrix. Row `r` of the result
  is row `r % 512` of the product of point `r / 512`, and `512 (r / 512) + r % 512 = r`: so entry (r, e) of the result
  is `∑ k, X (r, k) · W (e, k)`, the specification's sum, with `X` the hidden states reshaped to 8192 rows.
-/
import proofs.«175974_g45363444580704_cont_sun_m_752_15_alg».proof.Proof.KernelIdealValue
import proofs.«175974_g45363444580704_cont_sun_m_752_15_alg».proof.Proof.LibContraction
import proofs.«175974_g45363444580704_cont_sun_m_752_15_alg».proof.Proof.Spec
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! ## The product at an index -/

/-- The matrix product of 512 token rows with the expert matrix, read at (p, q): the sum over the hidden index. -/
theorem product_apply (x0 : Vec Ideal S512x4096 .f32) (x1 : Vec Ideal S64x4096 .f32) (p : Fin 512) (q : Fin 64) :
    k0_pay1 (F := Ideal) x0 x1 (ix2 p q) = ∑ k : Fin 4096, x0 (ix2 p k) * x1 (ix2 q k) := by
  show matmul (F := Ideal) dot_S512x4096_S64x4096_S512x64_1_1_0_0_n_n none
      (shapeCast S512x4096 x0 shapeCasts_S512x4096_S512x4096) x1 (constant (F := Ideal) S512x64 .f32 0x00000000#32) (ix2 p q) = _
  rw [shapeCast_self]
  refine (Ideal.matmul_constant_zero_apply dot_S512x4096_S64x4096_S512x64_1_1_0_0_n_n none x0 x1 (ix2 p q)).trans ?_
  rw [Cert.Lib.Contraction.sum_contr dot_S512x4096_S64x4096_S512x64_1_1_0_0_n_n (cl := (1 : Fin 2)) rfl 4096 rfl]
  refine Finset.sum_congr rfl fun k _ => ?_
  have el : dot_S512x4096_S64x4096_S512x64_1_1_0_0_n_n.lhsIdx (ix2 p q)
      ((Cert.Lib.Contraction.contrFin dot_S512x4096_S64x4096_S512x64_1_1_0_0_n_n (cl := (1 : Fin 2)) rfl 4096 rfl).symm k) = ix2 p k :=
    funext fun a => Fin.ext (by
      match a with
      | ⟨0, _⟩ => exact Cert.Lib.Contraction.lhs_free dot_S512x4096_S64x4096_S512x64_1_1_0_0_n_n (nl := (0 : Fin 2)) rfl rfl (ix2 p q) _ (by decide)
      | ⟨1, _⟩ => exact Cert.Lib.Contraction.lhs_contracted dot_S512x4096_S64x4096_S512x64_1_1_0_0_n_n (cl := (1 : Fin 2)) rfl 4096 rfl (ix2 p q) k)
  have er : dot_S512x4096_S64x4096_S512x64_1_1_0_0_n_n.rhsIdx (ix2 p q)
      ((Cert.Lib.Contraction.contrFin dot_S512x4096_S64x4096_S512x64_1_1_0_0_n_n (cl := (1 : Fin 2)) rfl 4096 rfl).symm k) = ix2 q k :=
    funext fun a => Fin.ext (by
      match a with
      | ⟨0, _⟩ => exact Cert.Lib.Contraction.rhs_free dot_S512x4096_S64x4096_S512x64_1_1_0_0_n_n (nl := (0 : Fin 2)) (nr := (0 : Fin 2)) rfl rfl rfl rfl (ix2 p q) _ (by decide)
      | ⟨1, _⟩ => exact Cert.Lib.Contraction.rhs_contracted dot_S512x4096_S64x4096_S512x64_1_1_0_0_n_n (cl := (1 : Fin 2)) (cr := (1 : Fin 2)) rfl rfl 4096 rfl (ix2 p q) k)
  rw [el, er]

/-! ## The blocks the points read -/

variable (m : (ℓ : Loc nD τ sig) → Buf (Elt Ideal) ℓ)

/-- The tokens as the region finds them: the hidden states reshaped to 8192 rows. -/
theorem tokens_eq (c : Dev nD) :
    (V m c main_v0 : S8192x4096.Idx → Elt Ideal .f32)
      = shapeCast S8192x4096 (m ((c.tc : Thread nD τ).loc main_arg0)) shapeCasts_S2x4096x4096_S8192x4096 := by
  dsimp only [Gen.V, Gen.hostOps0]
  after_results
  rfl

/-- Point `t`'s token block at (p, k) is the tokens at row `512 t + p`. -/
theorem token_block_apply (c : Dev nD) (t : Fin cfg0.N) (p : Fin 512) (k : Fin 4096) :
    iblk m c 0 t (ix2 p k) = V m c main_v0 (ix2 (⟨512 * t.val + p.val, by have := N_lt t; omega⟩ : Fin 8192) k) := by
  obtain ⟨e0, e1, -, -, -, -⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * k.val = k.val; omega

/-- Every point's expert block at (q, k) is the expert matrix there. -/
theorem expert_block_apply (c : Dev nD) (t : Fin cfg0.N) (q : Fin 64) (k : Fin 4096) :
    iblk m c 1 t (ix2 q k) = m ((c.tc : Thread nD τ).loc main_arg1) (ix2 q k) := by
  obtain ⟨-, -, e2, e3, -, -⟩ := idx_facts t
  rw [← V_main_arg1 m c]
  show V m c main_arg1 (((cfg0.win 1).blk t).view.emb (ix2 q k)) = _
  refine congrArg (V m c main_arg1) (funext fun a => Fin.ext ?_)
  match a with
  | ⟨0, _⟩ => show win0_1.index t (0 : Fin 2) * 64 + 1 * q.val = q.val; omega
  | ⟨1, _⟩ => show win0_1.index t (1 : Fin 2) * 4096 + 1 * k.val = k.val; omega

/-! ## The result array is the specification -/

/-- Entry (r, e) of the result array is the logit of token `r` for expert `e`. -/
theorem result_eq (c : Dev nD) :
    result (F := Ideal) m c
      = Cert.Spec.logits (shapeCast S8192x4096 (m ((c.tc : Thread nD τ).loc main_arg0)) shapeCasts_S2x4096x4096_S8192x4096)
          (m ((c.tc : Thread nD τ).loc main_arg1)) := by
  funext y
  have hy0 : (y 0).val < 8192 := (y 0).isLt
  unfold result pointProduct placeIn Cert.Spec.logits
  rw [product_apply]
  refine Finset.sum_congr rfl fun k _ => ?_
  rw [token_block_apply, expert_block_apply, tokens_eq]
  congr 2
  refine congrArg (fun a : Fin 8192 => ix2 a k) (Fin.ext ?_)
  show 512 * ((y 0).val / 512) + (y 0).val % 512 = (y 0).val
  omega

end Cert.KernelIdeal.Hand

end
-- ==== Proof.RefValue.lean ====
/-
  The reference computes the logits.

  The reference reshapes the (2, 4096, 4096) hidden states to 8192 token rows, transposes the expert matrix and takes
  one `dot_general` over the hidden axis. Read at an index (r, e), the product is the sum over k of the reshaped tokens
  at (r, k) times the TRANSPOSED experts at (k, e), and the transpose at (k, e) is the expert matrix at (e, k): the
  specification's sum, term by term.
-/
import proofs.«175974_g45363444580704_cont_sun_m_752_15_alg».proof.Defs
import proofs.«175974_g45363444580704_cont_sun_m_752_15_alg».proof.Proof.Gen.ReferenceIdeal.Read
import proofs.«175974_g45363444580704_cont_sun_m_752_15_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result, as a function of its two arguments, is the logits of the reshaped tokens and the experts. -/
theorem ref_eq (x0 : (⟨S2x4096x4096, .f32⟩ : BufTy).Contents (Elt Ideal)) (x1 : (⟨S64x4096, .f32⟩ : BufTy).Contents (Elt Ideal)) :
    val_main_v2 (F := Ideal) x0 x1
      = Cert.Spec.logits (shapeCast S8192x4096 x0 shapeCasts_S2x4096x4096_S8192x4096) x1 := by
  funext i
  rw [val_main_v2_apply]
  unfold Cert.Spec.logits
  refine Finset.sum_congr rfl fun k _ => ?_
  rw [val_main_v1_apply]
  have e0 : lidx_main_v2 i k = ix2 (⟨(i 0).val, (i 0).isLt⟩ : Fin 8192) k :=
    funext fun a => Fin.ext (by match a with | ⟨0, _⟩ => rfl | ⟨1, _⟩ => rfl)
  have e1 : idx_main_v1 (ridx_main_v2 i k) = ix2 (⟨(i 1).val, (i 1).isLt⟩ : Fin 64) k :=
    funext fun a => Fin.ext (by match a with | ⟨0, _⟩ => rfl | ⟨1, _⟩ => rfl)
  rw [e0, e1]
  rfl

end Cert.ReferenceIdeal.RefValue

end
-- ==== Proof.lean ====
/-
  The proof of `Cert.Claim`: a router's logits, computed by a Pallas kernel that streams 512 token rows per grid point
  against the resident expert matrix, equal the reference's one matrix product, entry by entry over the extended reals.

  The kernel's result window is the whole 8192 × 64 array, held in one staging buffer over all 16 grid points and written
  back once at the end; each point stores only its own band of 512 rows. So the frames and the value are read off a run
  whose proof data CONSTRAINS that buffer point by point (after point `t` the rows below `512 (t + 1)` are the result's)
  instead of naming it: that run is written once for any float instance and read at the word-level instance for
  `frame_Kernel` and at the ideal instance for `frame_KernelIdeal` and the kernel half of `algebraic`. At the ideal
  instance the result array's entry (r, e) is `∑ k, X (r, k) · W (e, k)` with `X` the hidden states reshaped to 8192
  rows: the kernel's matrix product into a zero accumulator and the reference's `dot_general` against the transposed
  expert matrix are that same sum term by term, so no law of the extended reals and no finiteness of the inputs is used.
  The reference's frame is its run with the result dropped; the ideal pass rewrote nothing, so `preserves` is `True`.
-/
import proofs.«175974_g45363444580704_cont_sun_m_752_15_alg».proof.Defs
import proofs.«175974_g45363444580704_cont_sun_m_752_15_alg».proof.Proof.Gen.Kernel
import proofs.«175974_g45363444580704_cont_sun_m_752_15_alg».proof.Proof.Gen.KernelIdeal
import proofs.«175974_g45363444580704_cont_sun_m_752_15_alg».proof.Proof.Gen.ReferenceIdeal
import proofs.«175974_g45363444580704_cont_sun_m_752_15_alg».proof.Proof.Gen.Pre_finite_inputs
import proofs.«175974_g45363444580704_cont_sun_m_752_15_alg».proof.Proof.Gen.ReferenceIdeal.Run
import proofs.«175974_g45363444580704_cont_sun_m_752_15_alg».proof.Proof.Gen.ReferenceIdeal.Read
import proofs.«175974_g45363444580704_cont_sun_m_752_15_alg».proof.Proof.KernelFrame
import proofs.«175974_g45363444580704_cont_sun_m_752_15_alg».proof.Proof.KernelIdealSum
import proofs.«175974_g45363444580704_cont_sun_m_752_15_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the logits of the reshaped hidden states and the
    expert matrix: the kernel's result array by the run over the points, the reference's by its run read at an index. -/
theorem algebraic : Cert.algebraic_KernelIdeal_ReferenceIdeal := by
  intro m ρ m' ρ' _ hagree
  refine ⟨fun c => Cert.KernelIdeal.Hand.result (F := Ideal) m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.result (F := Ideal) m c
  rw [Cert.ReferenceIdeal.Read.val_main_v2_eq, Cert.ReferenceIdeal.RefValue.ref_eq, (hagree c).1, (hagree c).2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
